-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S2048x2048 : Shape := ⟨2, ![2048, 2048]⟩
abbrev S2048 : Shape := ⟨1, ![2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x512x2048 .f32) (main_arg1 : FVec F S2048x2048 .f32) (main_arg2 : FVec F S2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x512x2048 : Shape := ⟨3, ![8, 512, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S256x2048 : Shape := ⟨2, ![256, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S2048x2048, .bf16⟩
  | .hbm, ⟨5, _⟩ => ⟨S1x2048, .f32⟩
  | .hbm, ⟨6, _⟩ => ⟨S4096x2048, .f32⟩
  | .hbm, ⟨7, _⟩ => ⟨S8x512x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512x2048_S4096x2048 : S8x512x2048.ShapeCasts S4096x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S4096x2048_S8x512x2048 : S4096x2048.ShapeCasts S8x512x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S256x512 : Shape := ⟨2, ![256, 512]⟩
abbrev S1x256 : Shape := ⟨2, ![1, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x512x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x512x2048_S4096x2048 : S8x512x2048.ShapeCasts S4096x2048
  shapeCasts_S2048_S1x2048 : S2048.ShapeCasts S1x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S4096x2048_S8x512x2048 : S4096x2048.ShapeCasts S8x512x2048
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x2048.size a
  hwx0_0 : ∀ i : grid0.Coords, EltTy.bits .f32 = 32 ∨ (Rect.block (s := S4096x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x2048.size a
  hwx0_1 : ∀ i : grid0.Coords, EltTy.bits .f32 = 32 ∨ (Rect.block (s := S2048x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x2048.size a
  hwx0_3 : ∀ i : grid0.Coords, EltTy.bits .f32 = 32 ∨ (Rect.block (s := S4096x2048) S256x256.size (cc0_transform_3 i) (hinb0_3 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.Spec.lean ====
/-
  The mathematics both programs compute: a linear layer `y = x · wᵀ + b` on a 4096 × 2048 matrix `x`, a
  2048 × 2048 weight `w` (row `n` of `w` holds the coefficients of output column `n`) and a bias row `b`:
  entry `(r, n)` of the result is `∑ₖ x(r, k) · w(n, k) + b(n)` over the extended reals.

  One program takes the whole sum over `k < 2048` at once; the other walks the contraction axis in four slabs
  of 512, adding each slab's partial dot product to a running total that starts at zero, and adds the bias to
  the last total. Addition of extended reals is associative and has `0` as a unit, so the running total after
  the fourth slab is the whole dot product (`acc_three`): no finiteness is used.

  Matrix entries are read through `rd`, which takes natural-number coordinates and is zero outside the matrix,
  so that the slab arithmetic (`512 · s + k`) is arithmetic of naturals.
-/
import Idealize.ShloMosaic.PureOps.Ideal
import Idealize.ShloMosaic.PureOps.Ideal.Laws
import Idealize.ShloMosaic.Lib.ValueIdx

noncomputable section

namespace Cert.Linear

open Idealize.ShloMosaic Idealize.ShloMosaic.ValueIdx
open scoped BigOperators

/-- Entry `(r, k)` of a matrix with `R` rows and `C` columns, at natural coordinates; zero outside. -/
def rd {R C : ℕ} (A : (⟨2, ![R, C]⟩ : Shape).Idx → EReal) (r k : ℕ) : EReal :=
  if h : r < R ∧ k < C then A (ix2 ⟨r, h.1⟩ ⟨k, h.2⟩) else 0

/-- Inside the matrix `rd` is the entry. -/
theorem rd_of_lt {R C : ℕ} (A : (⟨2, ![R, C]⟩ : Shape).Idx → EReal) (r k : ℕ) (hr : r < R) (hk : k < C) :
    rd A r k = A (ix2 ⟨r, hr⟩ ⟨k, hk⟩) := by
  unfold rd; rw [dif_pos ⟨hr, hk⟩]

/-- The same at coordinates that are already bounded. -/
theorem rd_ix2 {R C : ℕ} (A : (⟨2, ![R, C]⟩ : Shape).Idx → EReal) (r : Fin R) (k : Fin C) :
    rd A r.val k.val = A (ix2 r k) := rd_of_lt A r.val k.val r.isLt k.isLt

/-- Any index whose coordinates are `r` and `k` reads `rd A r k`. -/
theorem rd_of_coords {R C : ℕ} (A : (⟨2, ![R, C]⟩ : Shape).Idx → EReal) (i : (⟨2, ![R, C]⟩ : Shape).Idx) (r k : ℕ)
    (h0 : (i 0).val = r) (h1 : (i 1).val = k) : A i = rd A r k := by
  subst h0 h1
  exact (congrArg A (eq_ix2 i)).trans (rd_ix2 A (i 0) (i 1)).symm

variable {M N : ℕ} (X : (⟨2, ![M, 2048]⟩ : Shape).Idx → EReal) (W : (⟨2, ![N, 2048]⟩ : Shape).Idx → EReal)

/-- The term of the dot product of row `r` of `x` with row `n` of `w` at contraction position `k`. -/
def term (r n k : ℕ) : EReal := rd X r k * rd W n k

/-- The partial dot product over slab `s`: contraction positions `512 s … 512 s + 511`. -/
def slab (r n s : ℕ) : EReal := ∑ k : Fin 512, term X W r n (512 * s + k.val)

/-- The running total after slab `s`: zero plus slab 0, then one slab added at a time, in order. -/
def acc (r n : ℕ) : ℕ → EReal
  | 0 => 0 + slab X W r n 0
  | s + 1 => acc r n s + slab X W r n (s + 1)

/-- The whole dot product of row `r` of `x` with row `n` of `w`. -/
def dot (r n : ℕ) : EReal := ∑ k : Fin 2048, term X W r n k.val

/-- Four slabs of 512 are the whole contraction axis: the running total after the fourth slab is the dot product. -/
theorem acc_three (r n : ℕ) : acc X W r n 3 = dot X W r n := by
  unfold dot
  simp only [acc, slab, zero_add]
  rw [Fin.sum_univ_eq_sum_range (fun k => term X W r n k) 2048,
    Fin.sum_univ_eq_sum_range (fun k => term X W r n (512 * 0 + k)) 512,
    Fin.sum_univ_eq_sum_range (fun k => term X W r n (512 * (0 + 1) + k)) 512,
    Fin.sum_univ_eq_sum_range (fun k => term X W r n (512 * (0 + 1 + 1) + k)) 512,
    Fin.sum_univ_eq_sum_range (fun k => term X W r n (512 * (0 + 1 + 1 + 1) + k)) 512,
    show (2048 : ℕ) = 512 + 512 + 512 + 512 from rfl,
    Finset.sum_range_add, Finset.sum_range_add, Finset.sum_range_add]
  simp only [Nat.mul_zero, Nat.zero_add, Nat.mul_one, show (512 : ℕ) * (1 + 1) = 512 + 512 from rfl,
    show (512 : ℕ) * (1 + 1 + 1) = 512 + 512 + 512 from rfl]

/-- The linear layer: entry `(r, n)` is the dot product of row `r` of `x` with row `n` of `w`, plus `b(n)`. -/
def lin (B : (⟨2, ![1, N]⟩ : Shape).Idx → EReal) : (⟨2, ![M, N]⟩ : Shape).Idx → EReal :=
  fun j => dot X W (j 0).val (j 1).val + B (ix2 0 (j 1))

/-- The whole computation on the arguments as given: `x` of shape 8 × 512 × 2048 flattened to 4096 rows, the weight,
    the bias vector as a 1 × 2048 row, the linear layer of these, and the result folded back to 8 × 512 × 2048. -/
def layer (x : (⟨3, ![8, 512, 2048]⟩ : Shape).Idx → EReal) (w : (⟨2, ![2048, 2048]⟩ : Shape).Idx → EReal)
    (b : (⟨1, ![2048]⟩ : Shape).Idx → EReal)
    (hx : (⟨3, ![8, 512, 2048]⟩ : Shape).ShapeCasts (⟨2, ![4096, 2048]⟩ : Shape))
    (hb : (⟨1, ![2048]⟩ : Shape).ShapeCasts (⟨2, ![1, 2048]⟩ : Shape))
    (hy : (⟨2, ![4096, 2048]⟩ : Shape).ShapeCasts (⟨3, ![8, 512, 2048]⟩ : Shape)) :
    (⟨3, ![8, 512, 2048]⟩ : Shape).Idx → EReal :=
  shapeCast (⟨3, ![8, 512, 2048]⟩ : Shape)
    (lin (shapeCast (⟨2, ![4096, 2048]⟩ : Shape) x hx) w (shapeCast (⟨2, ![1, 2048]⟩ : Shape) b hb)) hy

end Cert.Linear

end
-- ==== Proof.LibDotRows.lean ====
/-
  A matrix product `x · wᵀ` read at an entry. A `tpu.matmul` whose dimension numbers contract axis 1 of the left
  operand `[A, K]` with axis 1 of the right operand `[B, K]` (rows against rows: no transpose is materialised), with
  no batch axis, into the zero accumulator, holds at entry `(p, q)` the sum over `k < K` of `l(p, k) · r(q, k)` at the
  ideal instance — for any extents `A`, `B`, `K` and any two float formats.
-/
import Idealize.ShloMosaic.PureOps.Ideal
import Idealize.ShloMosaic.PureOps.Ideal.Laws
import Idealize.ShloMosaic.Lib.ValueIdx

noncomputable section

namespace Cert.DotRows

open Idealize.ShloMosaic Idealize.ShloMosaic.ValueIdx
open scoped BigOperators

variable {A B K : ℕ}

/-- The dimension numbers of `x · wᵀ`: contract axis 1 with axis 1, keep axis 0 of each, no batch axis. -/
structure IsRowsByRows (D : DotDims (⟨2, ![A, K]⟩ : Shape) (⟨2, ![B, K]⟩ : Shape) (⟨2, ![A, B]⟩ : Shape)) : Prop where
  lc : D.lhsContracting = [1]
  rc : D.rhsContracting = [1]
  ln : D.lhsNonContracting = [0]
  rn : D.rhsNonContracting = [0]
  lb : D.lhsBatch = []
  rb : D.rhsBatch = []

variable {D : DotDims (⟨2, ![A, K]⟩ : Shape) (⟨2, ![B, K]⟩ : Shape) (⟨2, ![A, B]⟩ : Shape)}

theorem contr_rank (h : IsRowsByRows D) : D.contr.rank = 1 := by
  rw [D.rank_contr, h.lc]; rfl

theorem contr_size (h : IsRowsByRows D) : D.contr.size ⟨0, by rw [contr_rank h]; exact Nat.one_pos⟩ = K := by
  obtain ⟨lc, rc, ln, rn, lb, rb, wf⟩ := D
  obtain ⟨h1, h2, h3, h4, h5, h6⟩ := h
  simp only at h1 h2 h3 h4 h5 h6
  subst h1 h2 h3 h4 h5 h6
  rfl

/-- The left operand's row is the output's row … -/
theorem lhs_row (h : IsRowsByRows D) (j : (⟨2, ![A, B]⟩ : Shape).Idx) (k : D.contr.Idx) :
    (D.lhsIdx j k 0).val = (j 0).val := by
  obtain ⟨lc, rc, ln, rn, lb, rb, wf⟩ := D
  obtain ⟨h1, h2, h3, h4, h5, h6⟩ := h
  simp only at h1 h2 h3 h4 h5 h6
  subst h1 h2 h3 h4 h5 h6
  simp [DotDims.lhsIdx]; rfl

/-- … and the right operand's row is the output's column. -/
theorem rhs_row (h : IsRowsByRows D) (j : (⟨2, ![A, B]⟩ : Shape).Idx) (k : D.contr.Idx) :
    (D.rhsIdx j k 0).val = (j 1).val := by
  obtain ⟨lc, rc, ln, rn, lb, rb, wf⟩ := D
  obtain ⟨h1, h2, h3, h4, h5, h6⟩ := h
  simp only at h1 h2 h3 h4 h5 h6
  subst h1 h2 h3 h4 h5 h6
  simp [DotDims.rhsIdx]; rfl

/-- Entry `(p, q)` of `x · wᵀ` into the zero accumulator, at the ideal instance. -/
theorem matmul_zero_apply (h : IsRowsByRows D) {φ₁ φ₂ : FTy} (prec : Option ContractPrecision)
    (l : FVec Ideal (⟨2, ![A, K]⟩ : Shape) φ₁) (r : FVec Ideal (⟨2, ![B, K]⟩ : Shape) φ₂) (p : Fin A) (q : Fin B) :
    FloatOps.matmul D prec l r (constant (⟨2, ![A, B]⟩ : Shape) .f32 0x00000000#32) (ix2 p q)
      = ∑ k : Fin K, l (ix2 p k) * r (ix2 q k) := by
  rw [Ideal.matmul_constant_zero_apply, ← Equiv.sum_comp (contrEquiv1 D K (contr_rank h) (contr_size h)).symm]
  refine Finset.sum_congr rfl fun k _ => ?_
  have el : D.lhsIdx (ix2 p q) ((contrEquiv1 D K (contr_rank h) (contr_size h)).symm k) = ix2 p k := by
    funext a; apply Fin.ext
    match a with
    | ⟨0, _⟩ => exact lhs_row h _ _
    | ⟨1, _⟩ => exact (D.lhsIdx_val_of_single h.lc _ _).trans (contrEquiv1_symm_val D K (contr_rank h) (contr_size h) k)
  have er : D.rhsIdx (ix2 p q) ((contrEquiv1 D K (contr_rank h) (contr_size h)).symm k) = ix2 q k := by
    funext a; apply Fin.ext
    match a with
    | ⟨0, _⟩ => exact rhs_row h _ _
    | ⟨1, _⟩ => exact (D.rhsIdx_val_of_single h.rc _ _).trans (contrEquiv1_symm_val D K (contr_rank h) (contr_size h) k)
  rw [el, er]

end Cert.DotRows

end
-- ==== Proof.KernelValue.lean ====
/-
  What the one-pass program leaves in its result: the kernel visits sixteen row blocks of 256 rows; at block `t` it
  multiplies rows `256 t … 256 t + 255` of `x` (reshaped to 4096 × 2048) against ALL rows of `w` in one product
  over the whole contraction axis and adds the bias row, so the block it writes back is rows `256 t …` of the
  linear layer `lin x w b`; the sixteen blocks tile the 4096 × 2048 array; the last host line reshapes it to
  8 × 512 × 2048.
-/
import proofs.«158587_g2000605269542612_pallasbulk_1228_2_alg».proof.Proof.Spec
import proofs.«158587_g2000605269542612_pallasbulk_1228_2_alg».proof.Proof.LibDotRows
import proofs.«158587_g2000605269542612_pallasbulk_1228_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RowValue

open Cert.KernelIdeal Cert.KernelIdeal.Gen Cert.Linear

variable (m : (ℓ : Loc nD τ sig) → Buf (Elt Ideal) ℓ) (ρ : Dev nD → PrngReg)

theorem hz : (![0, 0] : Fin 2 → Nat) = fun _ => 0 := funext fun a => by fin_cases a <;> rfl

/-- The product's dimension numbers are rows against rows. -/
theorem dims_rows : Cert.DotRows.IsRowsByRows dot_S256x2048_S2048x2048_S256x2048_1_1_0_0_n_n := ⟨rfl, rfl, rfl, rfl, rfl, rfl⟩

/-- The body's stored value at entry `(p, q)` of a block: the dot product of row `p` of the `x` block with row `q` of
    the weight, plus the bias at `q` (the narrowing of `x` to bf16 is the identity on extended reals). -/
theorem pay_apply (x0 : Vec Ideal S256x2048 .f32) (x1 : Vec Ideal S2048x2048 .bf16) (x2 : Vec Ideal S1x2048 .f32)
    (p : Fin 256) (q : Fin 2048) :
    k0_pay1 x0 x1 x2 (ix2 p q) = (∑ k : Fin 2048, x0 (ix2 p k) * x1 (ix2 q k)) + x2 (ix2 0 q) := by
  unfold k0_pay1
  simp only [shapeCast_self]
  refine (addf_apply _ _ _).trans ?_
  refine congrArg₂ (· + ·) ?_ ?_
  · exact Cert.DotRows.matmul_zero_apply dims_rows none _ _ p q
  · exact broadcastTo_apply _ _ (ix2 p q) (ix2 0 q) (fun a => by match a with | ⟨0, _⟩ => rfl | ⟨1, _⟩ => rfl)

/-- The three arrays the region reads, as it finds them: §x§ reshaped to 4096 × 2048, the weight narrowed to bf16,
    the bias as a 1 × 2048 row. -/
abbrev Xk (c : Dev nD) : S4096x2048.Idx → EReal := V m c main_v0
abbrev Wk (c : Dev nD) : S2048x2048.Idx → EReal := V m c main_v1
abbrev Bk (c : Dev nD) : S1x2048.Idx → EReal := V m c main_v2

/-- Where the windows' blocks sit, decided over the sixteen points: the §x§ block and the result block at block row §t§,
    the weight and the bias whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row §p§ of the §x§ block at point §t§ is row §256 t + p§ of §x§. -/
theorem blk_x (c : Dev nD) (t : Fin cfg0.N) (p : Fin 256) (k : Fin 2048) :
    iblk m c 0 t (ix2 p k) = rd (Xk m c) (256 * t.val + p.val) k.val := by
  obtain ⟨e0, e1, -⟩ := idx_facts t
  unfold iblk
  rw [View.read_apply]
  refine rd_of_coords (Xk m c) _ _ _ ?_ ?_
  · show win0_0.index t (0 : Fin 2) * 256 + 1 * p.val = _
    rw [e0]; omega
  · show win0_0.index t (1 : Fin 2) * 2048 + 1 * k.val = _
    rw [e1]; omega

/-- The weight block is the whole weight. -/
theorem blk_w (c : Dev nD) (t : Fin cfg0.N) (q : Fin 2048) (k : Fin 2048) :
    iblk m c 1 t (ix2 q k) = rd (Wk m c) q.val k.val := by
  obtain ⟨-, -, e0, e1, -⟩ := idx_facts t
  unfold iblk
  rw [View.read_apply]
  refine rd_of_coords (Wk m c) _ _ _ ?_ ?_
  · show win0_1.index t (0 : Fin 2) * 2048 + 1 * q.val = _
    rw [e0]; omega
  · show win0_1.index t (1 : Fin 2) * 2048 + 1 * k.val = _
    rw [e1]; omega

/-- The bias block is the whole bias row. -/
theorem blk_b (c : Dev nD) (t : Fin cfg0.N) (q : Fin 2048) :
    iblk m c 2 t (ix2 0 q) = Bk m c (ix2 0 q) := by
  obtain ⟨-, -, -, -, e0, e1, -⟩ := idx_facts t
  unfold iblk
  rw [View.read_apply]
  refine congrArg (Bk m c) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = q.val; rw [e1]; omega

/-- WHAT POINT §t§ WRITES BACK is block §t§ of the linear layer of the arrays the region finds. -/
theorem flushed_eq (c : Dev nD) (t : Fin cfg0.N) :
    (dats m 0 c).flushed 3 t = ((cfg0.win 3).blk t).view.read (Elt Ideal) (lin (Xk m c) (Wk m c) (Bk m c)) := by
  show (cfg0.win 3).cut (grid0.coords t) ((dats m 0 c).after 3 t) = _
  rw [after0_3]
  unfold out0_3
  rw [View.canon_unit_zero hz]
  simp only [View.ld_unit_zero (S := S256x2048) hz, View.ld_unit_zero (S := S2048x2048) hz, View.ld_unit_zero (S := S1x2048) hz]
  obtain ⟨-, -, -, -, -, -, e0, e1⟩ := idx_facts t
  funext j
  obtain ⟨p, q, rfl⟩ : ∃ (p : Fin 256) (q : Fin 2048), j = ix2 p q := ⟨j 0, j 1, eq_ix2 j⟩
  have h0 : ((((cfg0.win 3).blk t).view.emb (ix2 p q)) 0).val = 256 * t.val + p.val := by
    show win0_3.index t (0 : Fin 2) * 256 + 1 * p.val = _
    rw [e0]; omega
  have h1 : (((cfg0.win 3).blk t).view.emb (ix2 p q)) 1 = q := Fin.ext (by
    show win0_3.index t (1 : Fin 2) * 2048 + 1 * q.val = q.val
    rw [e1]; omega)
  show k0_pay1 (iblk m c 0 t) (iblk m c 1 t) (iblk m c 2 t) (ix2 p q)
    = dot (Xk m c) (Wk m c) ((((cfg0.win 3).blk t).view.emb (ix2 p q)) 0).val ((((cfg0.win 3).blk t).view.emb (ix2 p q)) 1).val
      + Bk m c (ix2 0 ((((cfg0.win 3).blk t).view.emb (ix2 p q)) 1))
  rw [h0, h1]
  refine (pay_apply (iblk m c 0 t) (iblk m c 1 t) (iblk m c 2 t) p q).trans ?_
  unfold dot term
  exact congrArg₂ (· + ·) (Finset.sum_congr rfl fun k _ => congrArg₂ (· * ·) (blk_x m c t p k) (blk_w m c t q k)) (blk_b m c t q)

/-- An index of the array is in point §t§'s block iff each coordinate is in the block's range on its axis. -/
theorem mem_blk (t : Fin cfg0.N) (i : S4096x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v3).slice (win0_3.rect t)).set ↔ _
  rw [View.set_slice_whole, Rect.mem_set_unit]
  exact Iff.rfl

/-- Row §r§ of the array lies in the block of point §r / 256§: the sixteen blocks tile it. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 16 := N_0
  refine ⟨⟨(i 0).val / 256, by rw [hN]; omega⟩, flush0_3 _, ?_⟩
  rw [mem_blk]
  obtain ⟨-, -, -, -, -, -, e0, e1⟩ := idx_facts ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e0]; dsimp only; omega
  | ⟨1, _⟩ =>
    show win0_3.index _ (1 : Fin 2) * 2048 ≤ (i 1).val ∧ (i 1).val < win0_3.index _ (1 : Fin 2) * 2048 + 2048
    rw [e1]; omega

/-- The result array after the region: the linear layer of the arrays the region finds. -/
theorem final (c : Dev nD) : (dats m 0 c).arrAt 3 cfg0.N = lin (Xk m c) (Wk m c) (Bk m c) :=
  (dats m 0 c).arrAt_eq_of_cover 3 (lin (Xk m c) (Wk m c) (Bk m c)) (fun t _ => flushed_eq m c t) cover

/-- The host lines before the region: §x§ reshaped, the weight narrowed (the identity on extended reals), the bias as a row. -/
theorem Xk_eq (c : Dev nD) : Xk m c = shapeCast S4096x2048 (m ((c : Thread nD τ).loc main_arg0)) Facts₀.shapeCasts_S8x512x2048_S4096x2048 := by
  show StableHlo.after hostOps0 (fun b => m (c, b)) (Proc.devRef .tc main_v0) = _
  after_results; rfl
theorem Wk_eq (c : Dev nD) : Wk m c = m ((c : Thread nD τ).loc main_arg1) := by
  show StableHlo.after hostOps0 (fun b => m (c, b)) (Proc.devRef .tc main_v1) = _
  after_results; rfl
theorem Bk_eq (c : Dev nD) : Bk m c = shapeCast S1x2048 (m ((c : Thread nD τ).loc main_arg2)) Facts₀.shapeCasts_S2048_S1x2048 := by
  show StableHlo.after hostOps0 (fun b => m (c, b)) (Proc.devRef .tc main_v2) = _
  after_results; rfl

/-- The host line after the region reshapes the result array to 8 × 512 × 2048. -/
theorem tail_eq (c : Dev nD) :
    Pipeline.afterTail₀ cfgs (dats m) 0 (V0 m) [hostOps1] c main_v4
      = shapeCast S8x512x2048 ((dats m 0 c).arrAt 3 cfg0.N) Facts₀.shapeCasts_S4096x2048_S8x512x2048 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c _ _ 3
  rw [e]
  rfl

/-- The program's result: the linear layer of the reshaped §x§, the weight and the bias row, reshaped to 8 × 512 × 2048. -/
abbrev result (c : Dev nD) : Buf (Elt Ideal) ((c : Thread nD τ).loc main_v4) :=
  layer (m ((c : Thread nD τ).loc main_arg0)) (m ((c : Thread nD τ).loc main_arg1)) (m ((c : Thread nD τ).loc main_arg2))
    Facts₀.shapeCasts_S8x512x2048_S4096x2048 Facts₀.shapeCasts_S2048_S1x2048 Facts₀.shapeCasts_S4096x2048_S8x512x2048

/-- The run, read: the result at the linear layer, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans
        ((tail_eq m c).trans (by rw [final, Xk_eq, Wk_eq, Bk_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RowValue

end
-- ==== Proof.RefPieces.lean ====
/-
  The slab-by-slab program, one grid point at a time. Its grid is 16 × 8 × 4: block row `i`, block column `j`, slab `s`
  (fastest). The body keeps a 256 × 256 running total between points. What one point leaves, in each of the three
  control cases, as a function of the blocks it loads and of the total the point before left:
    first slab (s = 0):      the total is reset to zero, then the slab's block product is added:  total = 0 + xblk · wblkᵀ
    middle slabs (s = 1, 2): total = previous + xblk · wblkᵀ
    last slab (s = 3):       the same, and the output block is written: out = total + bias row.
  Each is read off the stores the body's run found (a store through the whole buffer last wins; a load after such a
  store reads what it stored).
-/
import proofs.«158587_g2000605269542612_pallasbulk_1228_2_alg».proof.Proof.Gen.ReferenceIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.Pieces

open Cert.ReferenceIdeal Cert.ReferenceIdeal.Gen

variable {F : FTy → Type} [FloatOps F]

theorem hz : (![0, 0] : Fin 2 → Nat) = fun _ => 0 := funext fun a => by fin_cases a <;> rfl

/-- A middle slab adds its block product to the total the point before left. -/
theorem scratch_B (c : Dev nD) (i : grid0.Coords) (a3 : Memref sig .tc .vmem S256x512 .f32) (h3 : a3.IsWhole)
    (a4 : Memref sig .tc .vmem S256x512 .f32) (h4 : a4.IsWhole) (a5 : Memref sig .tc .vmem S1x256 .f32) (h5 : a5.IsWhole)
    (a6 : Memref sig .tc .vmem S256x256 .f32) (h6 : a6.IsWhole) (a7 : Memref sig .tc .vmem S256x256 .f32) (h7 : a7.IsWhole)
    (hc0 : ¬cond0_0 i) (hc1 : ¬cond0_1 i)
    (x0 x1 : Vec F S256x512 .f32) (x2 : Vec F S1x256 .f32) (xs : Vec F S256x256 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  simp only [View.readAt_eq_ld, h3.read_unread, h4.read_unread, h7.read_unread, View.ld_unit_zero (S := S256x512) hz,
    View.ld_unit_zero (S := S256x256) hz]

/-- The first slab resets the total to the zero block and adds its block product. -/
theorem scratch_A (c : Dev nD) (i : grid0.Coords) (a3 : Memref sig .tc .vmem S256x512 .f32) (h3 : a3.IsWhole)
    (a4 : Memref sig .tc .vmem S256x512 .f32) (h4 : a4.IsWhole) (a5 : Memref sig .tc .vmem S1x256 .f32) (h5 : a5.IsWhole)
    (a6 : Memref sig .tc .vmem S256x256 .f32) (h6 : a6.IsWhole) (a7 : Memref sig .tc .vmem S256x256 .f32) (h7 : a7.IsWhole)
    (hc0 : cond0_0 i) (hc1 : ¬cond0_1 i)
    (x0 x1 : Vec F S256x512 .f32) (x2 : Vec F S1x256 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S256x256) hz, View.readCov_unit_zero (S := S256x256) _ hz]
  simp only [View.readAt_eq_ld, h3.read_unread, h4.read_unread, View.ld_unit_zero (S := S256x512) hz]

/-- The last slab writes out the new total plus the bias row. -/
theorem out_C (c : Dev nD) (i : grid0.Coords) (a3 : Memref sig .tc .vmem S256x512 .f32) (h3 : a3.IsWhole)
    (a4 : Memref sig .tc .vmem S256x512 .f32) (h4 : a4.IsWhole) (a5 : Memref sig .tc .vmem S1x256 .f32) (h5 : a5.IsWhole)
    (a6 : Memref sig .tc .vmem S256x256 .f32) (h6 : a6.IsWhole) (a7 : Memref sig .tc .vmem S256x256 .f32) (h7 : a7.IsWhole)
    (hc0 : ¬cond0_0 i) (hc1 : cond0_1 i)
    (x0 x1 : Vec F S256x512 .f32) (x2 : Vec F S1x256 .f32) (xs : Vec F S256x256 .f32) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S256x256) _ hz]
  simp only [View.readAt_eq_ld, h3.read_unread, h4.read_unread, h5.read_unread, h7.read_unread, View.ld_unit_zero (S := S256x512) hz,
    View.ld_unit_zero (S := S256x256) hz, View.ld_unit_zero (S := S1x256) hz]

/-- The last slab's total, like a middle slab's. -/
theorem scratch_C (c : Dev nD) (i : grid0.Coords) (a3 : Memref sig .tc .vmem S256x512 .f32) (h3 : a3.IsWhole)
    (a4 : Memref sig .tc .vmem S256x512 .f32) (h4 : a4.IsWhole) (a5 : Memref sig .tc .vmem S1x256 .f32) (h5 : a5.IsWhole)
    (a6 : Memref sig .tc .vmem S256x256 .f32) (h6 : a6.IsWhole) (a7 : Memref sig .tc .vmem S256x256 .f32) (h7 : a7.IsWhole)
    (hc0 : ¬cond0_0 i) (hc1 : cond0_1 i)
    (x0 x1 : Vec F S256x512 .f32) (x2 : Vec F S1x256 .f32) (xs : Vec F S256x256 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S256x512) hz,
    View.ld_unit_zero (S := S256x256) hz]

end Cert.ReferenceIdeal.Pieces

end
-- ==== Proof.RefValue.lean ====
/-
  What the slab-by-slab program leaves in its result. Point `n` of the 16 × 8 × 4 grid is block row `n / 32`, block
  column `(n / 4) % 8`, slab `n % 4`. By induction on the point, the 256 × 256 running total after point `n` holds,
  at `(p, q)`, the running total `acc` of the dot product of row `256 (n / 32) + p` of `x` with row
  `256 ((n / 4) % 8) + q` of `w` after slab `n % 4` (the first slab of each block restarts it from zero; a later slab
  adds to what the point before left, which is the same block's). At the last slab the block written back is that
  total plus the bias, and four slabs are the whole dot product: block `(i, j)` of the linear layer. The 128 written
  blocks tile the 4096 × 2048 array; the last host line reshapes it to 8 × 512 × 2048.
-/
import proofs.«158587_g2000605269542612_pallasbulk_1228_2_alg».proof.Proof.Spec
import proofs.«158587_g2000605269542612_pallasbulk_1228_2_alg».proof.Proof.LibDotRows
import proofs.«158587_g2000605269542612_pallasbulk_1228_2_alg».proof.Proof.RefPieces
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.ReferenceIdeal.SlabValue

open Cert.ReferenceIdeal Cert.ReferenceIdeal.Gen Cert.ReferenceIdeal.Pieces Cert.Linear

variable (m : (ℓ : Loc nD τ sig) → Buf (Elt Ideal) ℓ) (ρ : Dev nD → PrngReg)

/-- The block product's dimension numbers are rows against rows. -/
theorem dims_rows : Cert.DotRows.IsRowsByRows dot_S256x512_S256x512_S256x256_1_1_0_0_n_n := ⟨rfl, rfl, rfl, rfl, rfl, rfl⟩

/-! ## The three stored values at an entry -/

/-- The reset stores the zero block. -/
theorem zero_apply (p q : Fin 256) : k0_pay1 (F := Ideal) (ix2 p q) = 0 := by
  unfold k0_pay1
  simp only [shapeCast_self]
  exact Ideal.ofBits_zero_f32

/-- A slab's update at `(p, q)`: the total there plus the dot product of row `p` of the `x` block with row `q` of the
    weight block. -/
theorem upd_apply (a : Vec Ideal S256x256 .f32) (x0 x1 : Vec Ideal S256x512 .f32) (p q : Fin 256) :
    k0_pay2 a x0 x1 (ix2 p q) = a (ix2 p q) + ∑ k : Fin 512, x0 (ix2 p k) * x1 (ix2 q k) := by
  unfold k0_pay2
  simp only [shapeCast_self]
  refine (addf_apply _ _ _).trans ?_
  exact congrArg (a (ix2 p q) + ·) (Cert.DotRows.matmul_zero_apply dims_rows none _ _ p q)

/-- The written block at `(p, q)`: the total there plus the bias at `q`. -/
theorem fin_apply (a : Vec Ideal S256x256 .f32) (x2 : Vec Ideal S1x256 .f32) (p q : Fin 256) :
    k0_pay3 a x2 (ix2 p q) = a (ix2 p q) + x2 (ix2 0 q) := by
  unfold k0_pay3
  simp only [shapeCast_self]
  refine (addf_apply _ _ _).trans ?_
  exact congrArg (a (ix2 p q) + ·) (broadcastTo_apply _ _ (ix2 p q) (ix2 0 q) (fun a => by match a with | ⟨0, _⟩ => rfl | ⟨1, _⟩ => rfl))

/-! ## The windows' blocks -/

/-- The three arrays the region reads, as it finds them: `x` reshaped to 4096 × 2048, the weight, the bias as a row. -/
abbrev Xr (c : Dev nD) : S4096x2048.Idx → EReal := V m c main_v0
abbrev Wr (c : Dev nD) : S2048x2048.Idx → EReal := V m c main_arg1
abbrev Br (c : Dev nD) : S1x2048.Idx → EReal := V m c main_v1

/-- The blocks a point loads, at their literal shapes. -/
abbrev xblk (c : Dev nD) (t : Fin cfg0.N) : Vec Ideal S256x512 .f32 := iblk m c 0 t
abbrev wblk (c : Dev nD) (t : Fin cfg0.N) : Vec Ideal S256x512 .f32 := iblk m c 1 t
abbrev bblk (c : Dev nD) (t : Fin cfg0.N) : Vec Ideal S1x256 .f32 := iblk m c 2 t

/-- Where the windows' blocks sit, decided over the 512 points. -/
theorem idx_facts : ∀ t : Fin cfg0.N, win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- Row `p`, column `k` of the `x` block at point `t`. -/
theorem blk_x (c : Dev nD) (t : Fin cfg0.N) (p : Fin 256) (k : Fin 512) :
    xblk m c t (ix2 p k) = rd (Xr m c) (256 * (t.val / 32) + p.val) (512 * (t.val % 4) + k.val) := by
  obtain ⟨e0, e1, -⟩ := idx_facts t
  unfold xblk iblk
  rw [View.read_apply]
  refine rd_of_coords (Xr m c) _ _ _ ?_ ?_
  · show win0_0.index t (0 : Fin 2) * 256 + 1 * p.val = _
    rw [e0]; omega
  · show win0_0.index t (1 : Fin 2) * 512 + 1 * k.val = _
    rw [e1]; omega

/-- Row `q`, column `k` of the weight block at point `t`. -/
theorem blk_w (c : Dev nD) (t : Fin cfg0.N) (q : Fin 256) (k : Fin 512) :
    wblk m c t (ix2 q k) = rd (Wr m c) (256 * (t.val / 4 % 8) + q.val) (512 * (t.val % 4) + k.val) := by
  obtain ⟨-, -, e0, e1, -⟩ := idx_facts t
  unfold wblk iblk
  rw [View.read_apply]
  refine rd_of_coords (Wr m c) _ _ _ ?_ ?_
  · show win0_1.index t (0 : Fin 2) * 256 + 1 * q.val = _
    rw [e0]; omega
  · show win0_1.index t (1 : Fin 2) * 512 + 1 * k.val = _
    rw [e1]; omega

/-- The block product at point `t` is slab `t % 4` of the dot product of the two rows. -/
theorem slab_eq (c : Dev nD) (t : Fin cfg0.N) (p q : Fin 256) :
    ∑ k : Fin 512, xblk m c t (ix2 p k) * wblk m c t (ix2 q k)
      = slab (Xr m c) (Wr m c) (256 * (t.val / 32) + p.val) (256 * (t.val / 4 % 8) + q.val) (t.val % 4) := by
  unfold slab term
  exact Finset.sum_congr rfl fun k _ => congrArg₂ (· * ·) (blk_x m c t p k) (blk_w m c t q k)

/-! ## The running total, point by point -/

/-- After point `n` the carried 256 × 256 buffer holds the running totals of its block after slab `n % 4`. -/
theorem total_eq (c : Dev nD) : ∀ (n : ℕ) (h : n < cfg0.N) (p q : Fin 256),
    (outsAt0 m c n h).2 (ix2 p q)
      = acc (Xr m c) (Wr m c) (256 * (n / 32) + p.val) (256 * (n / 4 % 8) + q.val) (n % 4)
  | 0, h, p, q => by
    rw [outsAt0_A m c ⟨0, h⟩ rfl (by show ¬(0 % 4 = 3); decide)]
    dsimp only
    refine (congrFun (scratch_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _) _ _
      (xblk m c ⟨0, h⟩) (wblk m c ⟨0, h⟩) (bblk m c ⟨0, h⟩)) (ix2 p q)).trans ?_
    refine (upd_apply _ (xblk m c ⟨0, h⟩) (wblk m c ⟨0, h⟩) p q).trans ?_
    rw [zero_apply, slab_eq]
    rfl
  | n + 1, h, p, q => by
    have hN : n + 1 < 512 := lt_of_lt_of_eq h (show cfg0.N = 512 from N_0)
    by_cases h0 : (n + 1) % 4 = 0
    · -- a first slab: the total restarts from zero
      have h1 : ¬(n + 1) % 4 = 3 := by omega
      rw [outsAt0_A m c ⟨n + 1, h⟩ h0 h1]
      dsimp only
      refine (congrFun (scratch_A (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (xblk m c ⟨n + 1, h⟩) (wblk m c ⟨n + 1, h⟩) (bblk m c ⟨n + 1, h⟩)) (ix2 p q)).trans ?_
      refine (upd_apply _ (xblk m c ⟨n + 1, h⟩) (wblk m c ⟨n + 1, h⟩) p q).trans ?_
      rw [zero_apply, slab_eq]
      dsimp only
      rw [h0]
      rfl
    · -- a later slab: the point before left the same block's total after the slab before
      have ih := total_eq c n (Nat.lt_of_succ_lt h) p q
      have e1 : (n + 1) / 32 = n / 32 := by omega
      have e2 : (n + 1) / 4 % 8 = n / 4 % 8 := by omega
      have e3 : (n + 1) % 4 = n % 4 + 1 := by omega
      have key : (outsAt0 m c (n + 1) h).2 = k0_pay2 (outsAt0 m c n (Nat.lt_of_succ_lt h)).2 (xblk m c ⟨n + 1, h⟩) (wblk m c ⟨n + 1, h⟩) := by
        by_cases h1 : (n + 1) % 4 = 3
        · rw [outsAt0_C m c ⟨n + 1, h⟩ h0 h1]
          dsimp only
          exact scratch_C (F := Ideal) c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) (ms0_3 ⟨n + 1, h⟩) (hs0_3 ⟨n + 1, h⟩) scM0_0 (Memref.isWhole_whole _) _ _
            (xblk m c ⟨n + 1, h⟩) (wblk m c ⟨n + 1, h⟩) (bblk m c ⟨n + 1, h⟩) (outsAt0 m c n (Nat.lt_of_succ_lt h)).2
        · rw [outsAt0_B m c ⟨n + 1, h⟩ h0 h1]
          dsimp only
          exact scratch_B (F := Ideal) c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) (ms0_3 ⟨n + 1, h⟩) (hs0_3 ⟨n + 1, h⟩) scM0_0 (Memref.isWhole_whole _) _ _
            (xblk m c ⟨n + 1, h⟩) (wblk m c ⟨n + 1, h⟩) (bblk m c ⟨n + 1, h⟩) (outsAt0 m c n (Nat.lt_of_succ_lt h)).2
      rw [key]
      refine (upd_apply _ (xblk m c ⟨n + 1, h⟩) (wblk m c ⟨n + 1, h⟩) p q).trans ?_
      rw [ih, slab_eq]
      dsimp only
      rw [e1, e2, e3]
      rfl

/-! ## The written blocks and the result array -/

/-- At a last slab the written block is the new total plus the bias block. -/
theorem out_eq (c : Dev nD) (t : Fin cfg0.N) (h3 : t.val % 4 = 3) :
    (outsAt0 m c t.val t.isLt).1 = k0_pay3 (outsAt0 m c t.val t.isLt).2 (bblk m c t) := by
  have h0 : ¬t.val % 4 = 0 := by omega
  rw [outsAt0_C m c t h0 h3]
  dsimp only
  rw [out_C (F := Ideal) c (grid0.coords t) (ms0_0 t) (hs0_0 t) (ms0_1 t) (hs0_1 t) (ms0_2 t) (hs0_2 t) (ms0_3 t) (hs0_3 t) scM0_0
      (Memref.isWhole_whole _) _ _ (xblk m c t) (wblk m c t) (bblk m c t),
    scratch_C (F := Ideal) c (grid0.coords t) (ms0_0 t) (hs0_0 t) (ms0_1 t) (hs0_1 t) (ms0_2 t) (hs0_2 t) (ms0_3 t) (hs0_3 t) scM0_0
      (Memref.isWhole_whole _) _ _ (xblk m c t) (wblk m c t) (bblk m c t)]

/-- WHAT A LAST-SLAB POINT WRITES BACK is its block of the linear layer of the arrays the region finds. -/
theorem flushed_eq (c : Dev nD) (t : Fin cfg0.N) (hf : (cfg0.win 3).flush t = true) :
    (dats m 0 c).flushed 3 t = ((cfg0.win 3).blk t).view.read (Elt Ideal) (lin (Xr m c) (Wr m c) (Br m c)) := by
  have h3 : t.val % 4 = 3 := (flush0_3 t).mp hf
  obtain ⟨-, -, -, -, b0, b1, e0, e1⟩ := idx_facts t
  show (cfg0.win 3).cut (grid0.coords t) ((dats m 0 c).after 3 t) = _
  rw [after0_3, out_eq m c t h3]
  funext j
  obtain ⟨p, q, rfl⟩ : ∃ (p : Fin 256) (q : Fin 256), j = ix2 p q := ⟨j 0, j 1, eq_ix2 j⟩
  have g0 : ((((cfg0.win 3).blk t).view.emb (ix2 p q)) 0).val = 256 * (t.val / 32) + p.val := by
    show win0_3.index t (0 : Fin 2) * 256 + 1 * p.val = _
    rw [e0]; omega
  have g1 : ((((cfg0.win 3).blk t).view.emb (ix2 p q)) 1).val = 256 * (t.val / 4 % 8) + q.val := by
    show win0_3.index t (1 : Fin 2) * 256 + 1 * q.val = _
    rw [e1]; omega
  have gb : bblk m c t (ix2 0 q) = Br m c (ix2 0 ((((cfg0.win 3).blk t).view.emb (ix2 p q)) 1)) := by
    unfold bblk iblk
    rw [View.read_apply]
    refine congrArg (Br m c) (funext fun a => Fin.ext ?_)
    match a with
    | ⟨0, _⟩ => show win0_2.index t (0 : Fin 2) * 1 + 1 * 0 = 0; rw [b0]
    | ⟨1, _⟩ =>
      show win0_2.index t (1 : Fin 2) * 256 + 1 * q.val = win0_3.index t (1 : Fin 2) * 256 + 1 * q.val
      rw [b1, e1]
  show k0_pay3 (outsAt0 m c t.val t.isLt).2 (bblk m c t) (ix2 p q)
    = dot (Xr m c) (Wr m c) ((((cfg0.win 3).blk t).view.emb (ix2 p q)) 0).val ((((cfg0.win 3).blk t).view.emb (ix2 p q)) 1).val
      + Br m c (ix2 0 ((((cfg0.win 3).blk t).view.emb (ix2 p q)) 1))
  refine (fin_apply _ (bblk m c t) p q).trans ?_
  rw [total_eq m c t.val t.isLt p q, h3, acc_three, g0, g1, gb]

/-- An index of the array is in point `t`'s block iff each coordinate is in the block's range on its axis. -/
theorem mem_blk (t : Fin cfg0.N) (i : S4096x2048.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v2).slice (win0_3.rect t)).set ↔ _
  rw [View.set_slice_whole, Rect.mem_set_unit]
  exact Iff.rfl

/-- Entry `(r, n)` lies in the block written at the last slab of block row `r / 256`, block column `n / 256`. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 512 := N_0
  have ht : 32 * ((i 0).val / 256) + 4 * ((i 1).val / 256) + 3 < cfg0.N := by rw [hN]; omega
  refine ⟨⟨32 * ((i 0).val / 256) + 4 * ((i 1).val / 256) + 3, ht⟩, (flush0_3 _).mpr (by dsimp only; omega), ?_⟩
  rw [mem_blk]
  obtain ⟨-, -, -, -, -, -, e0, e1⟩ := idx_facts ⟨32 * ((i 0).val / 256) + 4 * ((i 1).val / 256) + 3, ht⟩
  intro a
  match a with
  | ⟨0, _⟩ =>
    show win0_3.index _ (0 : Fin 2) * 256 ≤ (i 0).val ∧ (i 0).val < win0_3.index _ (0 : Fin 2) * 256 + 256
    rw [e0]; dsimp only; omega
  | ⟨1, _⟩ =>
    show win0_3.index _ (1 : Fin 2) * 256 ≤ (i 1).val ∧ (i 1).val < win0_3.index _ (1 : Fin 2) * 256 + 256
    rw [e1]; dsimp only; omega

/-- The result array after the region: the linear layer of the arrays the region finds. -/
theorem final (c : Dev nD) : (dats m 0 c).arrAt 3 cfg0.N = lin (Xr m c) (Wr m c) (Br m c) :=
  (dats m 0 c).arrAt_eq_of_cover 3 (lin (Xr m c) (Wr m c) (Br m c)) (flushed_eq m c) cover

/-! ## The host lines around the region, and the run -/

/-- The host lines before the region: `x` reshaped, the bias as a row; the weight is the argument itself. -/
theorem Xr_eq (c : Dev nD) : Xr m c = shapeCast S4096x2048 (m ((c : Thread nD τ).loc main_arg0)) Facts₀.shapeCasts_S8x512x2048_S4096x2048 := by
  show StableHlo.after hostOps0 (fun b => m (c, b)) (Proc.devRef .tc main_v0) = _
  after_results; rfl
theorem Wr_eq (c : Dev nD) : Wr m c = m ((c : Thread nD τ).loc main_arg1) := V_main_arg1 m c
theorem Br_eq (c : Dev nD) : Br m c = shapeCast S1x2048 (m ((c : Thread nD τ).loc main_arg2)) Facts₀.shapeCasts_S2048_S1x2048 := by
  show StableHlo.after hostOps0 (fun b => m (c, b)) (Proc.devRef .tc main_v1) = _
  after_results; rfl

/-- The host line after the region reshapes the result array to 8 × 512 × 2048. -/
theorem tail_eq (c : Dev nD) :
    Pipeline.afterTail₀ cfgs (dats m) 0 (V0 m) [hostOps1] c main_v3
      = shapeCast S8x512x2048 ((dats m 0 c).arrAt 3 cfg0.N) Facts₀.shapeCasts_S4096x2048_S8x512x2048 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c _ _ 3
  rw [e]
  rfl

/-- The program's result: the linear layer of the reshaped `x`, the weight and the bias row, reshaped to 8 × 512 × 2048. -/
abbrev result (c : Dev nD) : Buf (Elt Ideal) ((c : Thread nD τ).loc main_v3) :=
  layer (m ((c : Thread nD τ).loc main_arg0)) (m ((c : Thread nD τ).loc main_arg1)) (m ((c : Thread nD τ).loc main_arg2))
    Facts₀.shapeCasts_S8x512x2048_S4096x2048 Facts₀.shapeCasts_S2048_S1x2048 Facts₀.shapeCasts_S4096x2048_S8x512x2048

/-- The run, read: the result at the linear layer, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans
        ((tail_eq m c).trans (by rw [final, Xr_eq, Wr_eq, Br_eq]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.SlabValue

end
-- ==== Proof.lean ====
/-
  Both programs are the linear layer `y = x · wᵀ + b` on `x` : 8 × 512 × 2048 (flattened to 4096 rows), `w` : 2048 × 2048
  and `b` : 2048, the result folded back to 8 × 512 × 2048.

  The kernel narrows `x` and `w` to bf16 — the identity on extended reals — and computes each block of 256 rows in one
  product over the whole contraction axis, adding the bias (Proof/KernelValue.lean). The reference is itself a blocked
  kernel: for each 256 × 256 output block it walks the contraction axis in four slabs of 512, keeping a running total
  that starts at zero, and adds the bias after the last slab (Proof/RefPieces.lean, Proof/RefValue.lean). Over the
  extended reals the running total after four slabs is the whole dot product, because addition is associative with
  unit `0` (Proof/Spec.lean, `acc_three`); nothing about finiteness is needed. So both results are the same function
  `Cert.Linear.layer` of the arguments.

  The three frame conjuncts are the generated frames; the idealization rewrote nothing, so `preserves` is `True`.
-/
import proofs.«158587_g2000605269542612_pallasbulk_1228_2_alg».proof.Defs
import proofs.«158587_g2000605269542612_pallasbulk_1228_2_alg».proof.Proof.Gen.Kernel
import proofs.«158587_g2000605269542612_pallasbulk_1228_2_alg».proof.Proof.Gen.Kernel.Frame
import proofs.«158587_g2000605269542612_pallasbulk_1228_2_alg».proof.Proof.Gen.KernelIdeal
import proofs.«158587_g2000605269542612_pallasbulk_1228_2_alg».proof.Proof.Gen.KernelIdeal.Frame
import proofs.«158587_g2000605269542612_pallasbulk_1228_2_alg».proof.Proof.Gen.ReferenceIdeal
import proofs.«158587_g2000605269542612_pallasbulk_1228_2_alg».proof.Proof.Gen.ReferenceIdeal.Frame
import proofs.«158587_g2000605269542612_pallasbulk_1228_2_alg».proof.Proof.Gen.Pre_finite_inputs
import proofs.«158587_g2000605269542612_pallasbulk_1228_2_alg».proof.Proof.KernelValue
import proofs.«158587_g2000605269542612_pallasbulk_1228_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- Run from memories that agree on `x`, `w` and `b`, both programs end with the linear layer of those arguments. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.SlabValue.run m' ρ')
  show Cert.Linear.layer
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) _ _ _
    = Cert.KernelIdeal.RowValue.result m c
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
